-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S128x128 : Shape := ⟨2, ![128, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : FVec F S128x128 .f32) (main_arg3 : FVec F S128 .f32) (main_arg4 : FVec F S128x128 .f32) (main_arg5 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x64 : Shape := ⟨2, ![100000, 64]⟩
abbrev S2x1200000 : Shape := ⟨2, ![2, 1200000]⟩
abbrev S128x128 : Shape := ⟨2, ![128, 128]⟩
abbrev S128 : Shape := ⟨1, ![128]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S5000x128 : Shape := ⟨2, ![5000, 128]⟩

abbrev nBuf : Space → Nat
  | .hbm => 42
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S_, .f32⟩
  | .hbm, ⟨20, _⟩ => ⟨S100000x64, .f32⟩
  | .hbm, ⟨21, _⟩ => ⟨S1200000x1, .i32⟩
  | .hbm, ⟨22, _⟩ => ⟨S100000x64, .f32⟩
  | .hbm, ⟨23, _⟩ => ⟨S_, .f32⟩
  | .hbm, ⟨24, _⟩ => ⟨S1200000, .f32⟩
  | .hbm, ⟨25, _⟩ => ⟨S_, .f32⟩
  | .hbm, ⟨26, _⟩ => ⟨S100000, .f32⟩
  | .hbm, ⟨27, _⟩ => ⟨S1200000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S1x128, .f32⟩
  | .hbm, ⟨41, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S128x128 : Shape := ⟨2, ![128, 128]⟩
abbrev S128 : Shape := ⟨1, ![128]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S_, .f32⟩
  | .hbm, ⟨20, _⟩ => ⟨S100000x64, .f32⟩
  | .hbm, ⟨21, _⟩ => ⟨S1200000x1, .i32⟩
  | .hbm, ⟨22, _⟩ => ⟨S100000x64, .f32⟩
  | .hbm, ⟨23, _⟩ => ⟨S_, .f32⟩
  | .hbm, ⟨24, _⟩ => ⟨S1200000, .f32⟩
  | .hbm, ⟨25, _⟩ => ⟨S_, .f32⟩
  | .hbm, ⟨26, _⟩ => ⟨S100000, .f32⟩
  | .hbm, ⟨27, _⟩ => ⟨S1200000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x128_S128x128_S100000x128_1_0_0_1_n_n_wf : DotDims.WF S100000x128 S128x128 S100000x128 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MlpSpec.lean ====
/-
  The function both programs compute, over the extended reals.

  From a table `C` of 100000 rows of 128 features (each node's mean of its in-neighbours' features beside its own),
  two 128 × 128 weight tables `A`, `B` and two bias rows `b₁`, `b₂`, a two-layer perceptron is applied row by row:

      hidden C A b₁ r k = max ((∑ k', C r k' · A k' k) + b₁ k) 0
      mlp C A b₁ B b₂ r j = (∑ k, hidden C A b₁ r k · B k j) + b₂ j

  Row `r` of the result depends on row `r` of `C` only, which is why the rows may be cut into blocks and each block
  computed on its own. No law of arithmetic is needed to join the two programs: each computes exactly these sums, in
  this order of operands, so nothing here asks whether an entry is finite.
-/
import Idealize.ShloMosaic.PureOps.Ideal

noncomputable section

open scoped BigOperators

namespace Cert.Mlp

/-- The hidden unit `k` of row `r`: the row's features against column `k` of the first weight table, plus the first
    bias, clamped below at zero. -/
def hidden (C : Fin 100000 → Fin 128 → EReal) (A : Fin 128 → Fin 128 → EReal) (b₁ : Fin 128 → EReal)
    (r : Fin 100000) (k : Fin 128) : EReal :=
  max ((∑ k' : Fin 128, C r k' * A k' k) + b₁ k) 0

/-- Output `j` of row `r`: the row's hidden units against column `j` of the second weight table, plus the second
    bias. -/
def mlp (C : Fin 100000 → Fin 128 → EReal) (A : Fin 128 → Fin 128 → EReal) (b₁ : Fin 128 → EReal)
    (B : Fin 128 → Fin 128 → EReal) (b₂ : Fin 128 → EReal) (r : Fin 100000) (j : Fin 128) : EReal :=
  (∑ k : Fin 128, hidden C A b₁ r k * B k j) + b₂ j

/-- The value depends on the row's own features only: two tables that agree on row `r` give the same row `r`. -/
theorem mlp_congr_row {C C' : Fin 100000 → Fin 128 → EReal} (A : Fin 128 → Fin 128 → EReal) (b₁ : Fin 128 → EReal)
    (B : Fin 128 → Fin 128 → EReal) (b₂ : Fin 128 → EReal) (r : Fin 100000) (j : Fin 128)
    (h : ∀ k', C r k' = C' r k') : mlp C A b₁ B b₂ r j = mlp C' A b₁ B b₂ r j := by
  unfold mlp hidden
  simp only [h]

end Cert.Mlp

end
-- ==== Proof.KernelPayload.lean ====
/-
  What the kernel's body stores, read at one entry of the block.

  The body loads a block of 5000 rows of the feature table, both 128 × 128 weight tables and both 1 × 128 bias rows,
  and stores `(max (X · A + b₁) 0) · B + b₂`, the narrowing of the matrix unit's operands to sixteen bits being the
  identity over the extended reals and each product accumulating into zero. At row `p` of the block and column `q`
  this is the sum over the 128 hidden units of the clamped first-layer value times `B k q`, plus `b₂ q`; the
  first-layer value of unit `k` is the sum over the row's 128 features times `A k' k`, plus `b₁ k`.
-/
import proofs.«153227_j82162724372842_1_alg».proof.Proof.Gen.KernelIdeal.Skeleton
import Idealize.ShloMosaic.Lib.ValueIdx
import Idealize.ShloMosaic.Lib.Pipeline.Value
import Idealize.ShloMosaic.PureOps.Ideal.Laws
import proofs.«153227_j82162724372842_1_alg».proof.Proof.MlpSpec

noncomputable section

open scoped BigOperators

namespace Cert.KernelIdeal.Payload

open Cert.KernelIdeal Cert.KernelIdeal.Gen Idealize.ShloMosaic Idealize.ShloMosaic.ValueIdx

/-! ## The matrix unit's product at an entry -/

/-- The left operand is read on the output's row. -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and at the contracted position along its columns. -/
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand is read at the contracted position along its rows -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and on the output's column. -/
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product accumulated into zero, at row `p` and column `q`: the sum over the contracted
    position `k` of the left operand at `(p, k)` times the right at `(k, q)`. -/
theorem matmul_zero_apply {φ₁ φ₂ : FTy} (l : FVec Ideal S5000x128 φ₁) (w : FVec Ideal S128x128 φ₂) (p : Fin 5000) (q : Fin 128) :
    matmul dot_S5000x128_S128x128_S5000x128_1_0_0_1_n_n none l w (constant (F := Ideal) S5000x128 .f32 0x00000000#32) (ix2 p q)
      = ∑ k : Fin 128, l (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## A bias row spread over the block's rows -/

/-- A 1 × 128 row broadcast to 5000 × 128, at `(p, q)`, is the row's entry at column `q`. -/
theorem bias_apply (v : Vec Ideal S1x128 .f32) (p : Fin 5000) (q : Fin 128) :
    broadcastTo S5000x128 (shapeCast S1x128 v shapeCasts_S1x128_S1x128) broadcasts_S1x128_S5000x128 (ix2 p q) = v (ix2 (0 : Fin 1) q) := by
  rw [shapeCast_self]
  exact broadcastTo_apply v broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! ## The stored value at an entry -/

/-- Entry `(p, q)` of what the body stores, from the five loaded blocks. -/
theorem pay_apply (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k0_pay1 (F := Ideal) x0 x1 x2 x3 x4 (ix2 p q)
      = (∑ k : Fin 128, max ((∑ k' : Fin 128, x0 (ix2 p k') * x1 (ix2 k' k)) + x2 (ix2 (0 : Fin 1) k)) 0 * x3 (ix2 k q))
          + x4 (ix2 (0 : Fin 1) q) := by
  unfold k0_pay1
  rw [addf_apply, matmul_zero_apply, bias_apply]
  refine congrArg (· + x4 (ix2 (0 : Fin 1) q)) (Finset.sum_congr rfl fun k _ => ?_)
  rw [truncf_apply, maximumf_apply, addf_apply, matmul_zero_apply, bias_apply]
  simp only [truncf_apply, shapeCast_self, broadcast_apply, Ideal.ofBits_def, Ideal.ofBits_zero_f32]

/-- The same with each loaded block named by the table it was cut from: if the feature block's row `p` is the table's
    row `r` and the other four blocks are their whole tables, the stored value at `(p, q)` is the perceptron of the tables
    at row `r`, column `q`. -/
theorem pay_eq_mlp (X0 : Vec Ideal S5000x128 .f32) (X1 : Vec Ideal S128x128 .f32) (X2 : Vec Ideal S1x128 .f32)
    (X3 : Vec Ideal S128x128 .f32) (X4 : Vec Ideal S1x128 .f32)
    (C : Vec Ideal S100000x128 .f32) (A : Vec Ideal S128x128 .f32) (b₁ : Vec Ideal S1x128 .f32)
    (B : Vec Ideal S128x128 .f32) (b₂ : Vec Ideal S1x128 .f32) (r : Fin 100000) (p : Fin 5000) (q : Fin 128)
    (h0 : ∀ k : Fin 128, X0 (ix2 p k) = C (ix2 r k)) (h1 : ∀ a b : Fin 128, X1 (ix2 a b) = A (ix2 a b))
    (h2 : ∀ k : Fin 128, X2 (ix2 (0 : Fin 1) k) = b₁ (ix2 (0 : Fin 1) k)) (h3 : ∀ a b : Fin 128, X3 (ix2 a b) = B (ix2 a b))
    (h4 : ∀ k : Fin 128, X4 (ix2 (0 : Fin 1) k) = b₂ (ix2 (0 : Fin 1) k)) :
    k0_pay1 (F := Ideal) X0 X1 X2 X3 X4 (ix2 p q)
      = Cert.Mlp.mlp (fun r k => C (ix2 r k)) (fun a b => A (ix2 a b)) (fun q => b₁ (ix2 (0 : Fin 1) q))
          (fun a b => B (ix2 a b)) (fun q => b₂ (ix2 (0 : Fin 1) q)) r q := by
  rw [pay_apply]
  simp only [h0, h1, h2, h3, h4]
  rfl

end Cert.KernelIdeal.Payload

end
-- ==== Proof.Blocks.lean ====
/-
  The blocks a grid point works on.

  The grid has 20 points. Point `t` works on rows `5000·t … 5000·t + 4999`: its block of the feature table and its block
  of the output are those rows, all 128 columns, while the two weight tables and the two bias rows are whole at every
  point. Here: the arrays by name, the array `out` the output is to end holding (the perceptron applied to every row),
  the index maps decided over the grid, and each input block read entry by entry off its array.
-/
import proofs.«153227_j82162724372842_1_alg».proof.Proof.Gen.KernelIdeal.Value
import proofs.«153227_j82162724372842_1_alg».proof.Proof.KernelPayload
import proofs.«153227_j82162724372842_1_alg».proof.Proof.MlpSpec
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds, by their literal types -/

/-- The feature table: each node's aggregated features beside its own. -/
abbrev feat (c : Dev nD) : Vec Ideal S100000x128 .f32 := V m c main_v22
/-- The first weight table, transposed. -/
abbrev w1t (c : Dev nD) : Vec Ideal S128x128 .f32 := V m c main_v23
/-- The first bias, as a row. -/
abbrev b1r (c : Dev nD) : Vec Ideal S1x128 .f32 := V m c main_v25
/-- The second weight table, transposed. -/
abbrev w2t (c : Dev nD) : Vec Ideal S128x128 .f32 := V m c main_v24
/-- The second bias, as a row. -/
abbrev b2r (c : Dev nD) : Vec Ideal S1x128 .f32 := V m c main_v26

/-- The perceptron applied to every row of the feature table: what the output array ends holding. -/
def out (c : Dev nD) : Vec Ideal S100000x128 .f32 := fun i =>
  Cert.Mlp.mlp (fun r k => feat m c (ix2 r k)) (fun a b => w1t m c (ix2 a b)) (fun q => b1r m c (ix2 (0 : Fin 1) q))
    (fun a b => w2t m c (ix2 a b)) (fun q => b2r m c (ix2 (0 : Fin 1) q)) (i 0) (i 1)

/-! ## The index maps over the grid -/

theorem hz : (![0, 0] : Fin 2 → Nat) = fun _ => 0 := funext fun a => by fin_cases a <;> rfl

/-- The feature block moves with the output block along the rows; every other block index is zero; there are 20 row
    blocks. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every row block is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The row of the table that row `p` of point `t`'s block is. -/
def row (t : Fin cfg0.N) (p : Fin 5000) : Fin 100000 :=
  ⟨win0_5.index t (0 : Fin 2) * 5000 + p.val, by have h := (idx_facts t).2.2.2.2.2.2.2.2.2.2.1; have := p.isLt; omega⟩

/-! ## The blocks at a point, entry by entry -/

/-- The feature block at `(p, k)` is the table at row `row t p`. -/
theorem feat_blk (c : Dev nD) (t : Fin cfg0.N) (p : Fin 5000) (k : Fin 128) :
    iblk m c 0 t (ix2 p k) = feat m c (ix2 (row t p) k) := by
  obtain ⟨e00, e01, -⟩ := idx_facts t
  have h : ((cfg0.win 0).blk t).view.emb (ix2 p k) = ix2 (row t p) k := by
    funext a; apply Fin.ext
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  show V m c main_v22 (((cfg0.win 0).blk t).view.emb (ix2 p k)) = V m c main_v22 (ix2 (row t p) k)
  rw [h]

/-- The first weight table's block is the table. -/
theorem w1t_blk (c : Dev nD) (t : Fin cfg0.N) (a b : Fin 128) : iblk m c 1 t (ix2 a b) = w1t m c (ix2 a b) := by
  obtain ⟨-, -, e10, e11, -⟩ := idx_facts t
  have h : ((cfg0.win 1).blk t).view.emb (ix2 a b) = ix2 a b := by
    funext d; apply Fin.ext
    match d with
    | ⟨0, _⟩ => show win0_1.index t (0 : Fin 2) * 128 + 1 * a.val = a.val; omega
    | ⟨1, _⟩ => show win0_1.index t (1 : Fin 2) * 128 + 1 * b.val = b.val; omega
  show V m c main_v23 (((cfg0.win 1).blk t).view.emb (ix2 a b)) = V m c main_v23 (ix2 a b)
  rw [h]

/-- The first bias row's block is the row. -/
theorem b1r_blk (c : Dev nD) (t : Fin cfg0.N) (q : Fin 128) : iblk m c 2 t (ix2 (0 : Fin 1) q) = b1r m c (ix2 (0 : Fin 1) q) := by
  obtain ⟨-, -, -, -, e20, e21, -⟩ := idx_facts t
  have h : ((cfg0.win 2).blk t).view.emb (ix2 (0 : Fin 1) q) = ix2 (0 : Fin 1) q := by
    funext d; apply Fin.ext
    match d with
    | ⟨0, _⟩ => show win0_2.index t (0 : Fin 2) * 1 + 1 * 0 = 0; omega
    | ⟨1, _⟩ => show win0_2.index t (1 : Fin 2) * 128 + 1 * q.val = q.val; omega
  show V m c main_v25 (((cfg0.win 2).blk t).view.emb (ix2 (0 : Fin 1) q)) = V m c main_v25 (ix2 (0 : Fin 1) q)
  rw [h]

/-- The second weight table's block is the table. -/
theorem w2t_blk (c : Dev nD) (t : Fin cfg0.N) (a b : Fin 128) : iblk m c 3 t (ix2 a b) = w2t m c (ix2 a b) := by
  obtain ⟨-, -, -, -, -, -, e30, e31, -⟩ := idx_facts t
  have h : ((cfg0.win 3).blk t).view.emb (ix2 a b) = ix2 a b := by
    funext d; apply Fin.ext
    match d with
    | ⟨0, _⟩ => show win0_3.index t (0 : Fin 2) * 128 + 1 * a.val = a.val; omega
    | ⟨1, _⟩ => show win0_3.index t (1 : Fin 2) * 128 + 1 * b.val = b.val; omega
  show V m c main_v24 (((cfg0.win 3).blk t).view.emb (ix2 a b)) = V m c main_v24 (ix2 a b)
  rw [h]

/-- The second bias row's block is the row. -/
theorem b2r_blk (c : Dev nD) (t : Fin cfg0.N) (q : Fin 128) : iblk m c 4 t (ix2 (0 : Fin 1) q) = b2r m c (ix2 (0 : Fin 1) q) := by
  obtain ⟨-, -, -, -, -, -, -, -, e40, e41, -⟩ := idx_facts t
  have h : ((cfg0.win 4).blk t).view.emb (ix2 (0 : Fin 1) q) = ix2 (0 : Fin 1) q := by
    funext d; apply Fin.ext
    match d with
    | ⟨0, _⟩ => show win0_4.index t (0 : Fin 2) * 1 + 1 * 0 = 0; omega
    | ⟨1, _⟩ => show win0_4.index t (1 : Fin 2) * 128 + 1 * q.val = q.val; omega
  show V m c main_v26 (((cfg0.win 4).blk t).view.emb (ix2 (0 : Fin 1) q)) = V m c main_v26 (ix2 (0 : Fin 1) q)
  rw [h]

end Cert.KernelIdeal.Whole

end
-- ==== Proof.WholeArray.lean ====
/-
  From the blocks to the whole output array.

  What the body stores at row `p`, column `q` of point `t`'s block is the perceptron of the WHOLE tables at row
  `5000·t + p`, column `q` — the value at a row depends on that row's features only —, so every point writes back its
  block of the one array `out`. The 20 blocks tile the 100000 rows (row `r` lies in the block of point `r / 5000`), so
  after the run the output array is `out`.
-/
import proofs.«153227_j82162724372842_1_alg».proof.Proof.Blocks

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a point writes back -/

/-- Row `p`, column `q` of point `t`'s output block is row `row t p`, column `q` of the array. -/
theorem out_emb (t : Fin cfg0.N) (p : Fin 5000) (q : Fin 128) :
    ((cfg0.win 5).blk t).view.emb (ix2 p q) = ix2 (row t p) q := by
  obtain ⟨-, -, -, -, -, -, -, -, -, -, e5le, e51⟩ := idx_facts t
  funext a; apply Fin.ext
  match a with
  | ⟨0, _⟩ => show win0_5.index t (0 : Fin 2) * 5000 + 1 * p.val = win0_5.index t (0 : Fin 2) * 5000 + p.val; omega
  | ⟨1, _⟩ => show win0_5.index t (1 : Fin 2) * 128 + 1 * q.val = q.val; omega

/-- The stored value at `(p, q)` of point `t`'s block is `out` at `(row t p, q)`. -/
theorem stored_apply (c : Dev nD) (t : Fin cfg0.N) (p : Fin 5000) (q : Fin 128) :
    k0_pay1 (F := Ideal) (iblk m c 0 t) (iblk m c 1 t) (iblk m c 2 t) (iblk m c 3 t) (iblk m c 4 t) (ix2 p q)
      = out m c (ix2 (row t p) q) :=
  Payload.pay_eq_mlp (iblk m c 0 t) (iblk m c 1 t) (iblk m c 2 t) (iblk m c 3 t) (iblk m c 4 t)
    (feat m c) (w1t m c) (b1r m c) (w2t m c) (b2r m c) (row t p) p q
    (feat_blk m c t p) (w1t_blk m c t) (b1r_blk m c t) (w2t_blk m c t) (b2r_blk m c t)

/-- The same at any index `j` of the block. -/
theorem stored_at (c : Dev nD) (t : Fin cfg0.N) (j : S5000x128.Idx) :
    k0_pay1 (F := Ideal) (iblk m c 0 t) (iblk m c 1 t) (iblk m c 2 t) (iblk m c 3 t) (iblk m c 4 t) j
      = out m c (ix2 (row t (j 0)) (j 1)) := by
  obtain ⟨p, q, rfl⟩ : ∃ (p : Fin 5000) (q : Fin 128), j = ix2 p q := ⟨j 0, j 1, eq_ix2 j⟩
  exact stored_apply m c t p q

/-- Where an index `y` of point `t`'s output block lies in the array: on the row of its first coordinate, at its
    second coordinate. -/
theorem blk_emb (t : Fin cfg0.N) (y : ((cfg0.win 5).xblock (grid0.coords t)).Idx) :
    ((cfg0.win 5).blk t).view.emb y
      = ix2 (row t (((cfg0.win 5).xinj (grid0.coords t) y) 0)) (((cfg0.win 5).xinj (grid0.coords t) y) 1) := by
  obtain ⟨-, -, -, -, -, -, -, -, -, -, e5le, e51⟩ := idx_facts t
  funext a; apply Fin.ext
  match a with
  | ⟨0, _⟩ => show win0_5.index t (0 : Fin 2) * 5000 + 1 * (y 0).val = win0_5.index t (0 : Fin 2) * 5000 + (y 0).val; omega
  | ⟨1, _⟩ => show win0_5.index t (1 : Fin 2) * 128 + 1 * (y 1).val = (y 1).val; omega

/-- For ANY contents `G` of the output array, what point `t`'s block reads of it at `y` is `G` on the row of `y`'s
    first coordinate, at its second coordinate. -/
theorem read_blk_of (G : Vec Ideal S100000x128 .f32) (t : Fin cfg0.N) (y : ((cfg0.win 5).xblock (grid0.coords t)).Idx) :
    G (ix2 (row t (((cfg0.win 5).xinj (grid0.coords t) y) 0)) (((cfg0.win 5).xinj (grid0.coords t) y) 1))
      = ((cfg0.win 5).blk t).view.read (Elt Ideal) G y := by
  show G _ = G (((cfg0.win 5).blk t).view.emb y)
  exact congrArg G (blk_emb t y).symm

/-- Point `t` writes back its block of `out`: the stored value at each index of the block is `out` where the block
    puts that index. -/
theorem flushed_eq (c : Dev nD) (t : Fin cfg0.N) :
    (dats m 0 c).flushed 5 t = ((cfg0.win 5).blk t).view.read (Elt Ideal) (out m c) := by
  rw [Value.flushed5]
  unfold out0_5
  rw [View.canon_unit_zero hz]
  simp only [View.ld_unit_zero (S := S5000x128) hz, View.ld_unit_zero (S := S128x128) hz, View.ld_unit_zero (S := S1x128) hz]
  funext y
  exact (stored_at m c t ((cfg0.win 5).xinj (grid0.coords t) y)).trans (read_blk_of (out m c) t y)

/-! ## The blocks tile the array -/

/-- An index is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v27).slice (win0_5.rect t)).set ↔ _
  rw [View.set_slice_whole, Rect.mem_set_unit]
  exact Iff.rfl

/-- Row `r` lies in the block of the point whose row block is `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-! ## The output array after the run -/

/-- The output array ends holding the perceptron of every row. -/
theorem final (c : Dev nD) : (dats m 0 c).arrAt 5 cfg0.N = out m c :=
  (dats m 0 c).arrAt_eq_of_cover 5 (out m c) (fun t _ => flushed_eq m c t) cover

/-- The kernel's run: the result array at `out`, the arguments unchanged. -/
theorem run : θ_run defs (onTc (τ := τ) (main (F := Ideal))) ⟨m, fun _ => 0, ρ⟩ fun r => ∀ c : Dev nD,
      r.2.mem ((c : Thread nD τ).loc main_v27) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.HostArrays.lean ====
/-
  The arrays the kernel's region finds, as the reference's own stages.

  Before its one region the kernel's @main runs three stretches of host operations: the first gathers every edge's
  sender row, adds it into the receiver's row and counts each node's incoming edges; the second clamps the counts
  below at one; the third divides, joins the means to each node's own features (the table the region reads through
  its first window), transposes both weight tables and reshapes both biases to rows. The reference runs the same
  operations on the same arguments. Each stretch is read by itself, from whatever the stretch before it left, so that
  no step carries the whole line; the first stretch's three results are then the reference's stages by unfolding.
-/
import proofs.«153227_j82162724372842_1_alg».proof.Proof.Gen.KernelIdeal.Frame
import proofs.«153227_j82162724372842_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostArrays

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- Two lines of operations run one after the other leave what the second leaves from what the first left. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => exact ih _

/-! ## The third stretch, from any contents -/

/-- The feature table: the sums divided by the clamped counts spread along each row, joined to the own features. -/
theorem third_feat (W : Valuation τ sig (Elt Ideal)) :
    (after (hostOps0_2 (F := Ideal)) W (Proc.devRef .tc main_v22) : (⟨S100000x128, .f32⟩ : BufTy).Contents (Elt Ideal))
      = concatenate S100000x128 1
          [⟨S100000x64, Host.divf (F := Ideal) (φ := .f32) (W (Proc.devRef .tc main_v13) : (⟨S100000x64, .f32⟩ : BufTy).Contents (Elt Ideal))
              (broadcastInDim S100000x64 ![0, 1] bcast_S100000x1_S100000x64_0_1
                (broadcastInDim S100000x1 ![0] bcast_S100000_S100000x1_0 (W (Proc.devRef .tc main_v18) : (⟨S100000, .f32⟩ : BufTy).Contents (Elt Ideal))))⟩,
            ⟨S100000x64, (W (Proc.devRef .tc main_arg0) : (⟨S100000x64, .f32⟩ : BufTy).Contents (Elt Ideal))⟩]
          concatenates_S100000x64_S100000x64_S100000x128_d1 := by
  after_results

/-! ## The second stretch, from any contents -/

/-- The counts clamped below at one. -/
theorem second_counts (W : Valuation τ sig (Elt Ideal)) :
    (after (hostOps0_1 (F := Ideal)) W (Proc.devRef .tc main_v18) : (⟨S100000, .f32⟩ : BufTy).Contents (Elt Ideal))
      = maximumf (F := Ideal) (φ := .f32) (broadcastInDim S100000 ![] bcast_S_S100000 (id (W (Proc.devRef .tc main_cst_3) : (⟨S_, .f32⟩ : BufTy).Contents (Elt Ideal))))
          (W (Proc.devRef .tc main_v17) : (⟨S100000, .f32⟩ : BufTy).Contents (Elt Ideal)) := by
  after_results
  rfl
/-- It leaves the sums as they were, -/
theorem second_sums (W : Valuation τ sig (Elt Ideal)) :
    after (hostOps0_1 (F := Ideal)) W (Proc.devRef .tc main_v13) = W (Proc.devRef .tc main_v13) := by
  after_results
/-- and the node features. -/
theorem second_arg0 (W : Valuation τ sig (Elt Ideal)) :
    after (hostOps0_1 (F := Ideal)) W (Proc.devRef .tc main_arg0) = W (Proc.devRef .tc main_arg0) := by
  after_results

/-! ## The first stretch, from the launch contents -/

set_option maxRecDepth 8192 in
set_option maxHeartbeats 2000000 in
/-- The sums: every edge's sender row added into its receiver's row. -/
theorem first_sums (c : Dev nD) :
    (after (hostOps0 (F := Ideal)) (fun b => m (c, b)) (Proc.devRef .tc main_v13) : (⟨S100000x64, .f32⟩ : BufTy).Contents (Elt Ideal))
      = Cert.ReferenceIdeal.Read.val_main_v13 (F := Ideal) (m ((c : Thread nD τ).loc main_arg0)) (m ((c : Thread nD τ).loc main_arg1)) := by
  after_results_simp <;> rfl

set_option maxRecDepth 8192 in
set_option maxHeartbeats 2000000 in
/-- The counts: one added into its receiver's entry for every edge. -/
theorem first_counts (c : Dev nD) :
    (after (hostOps0 (F := Ideal)) (fun b => m (c, b)) (Proc.devRef .tc main_v17) : (⟨S100000, .f32⟩ : BufTy).Contents (Elt Ideal))
      = Cert.ReferenceIdeal.Read.val_main_v17 (F := Ideal) (m ((c : Thread nD τ).loc main_arg1)) := by
  after_results_simp <;> rfl

set_option maxRecDepth 8192 in
set_option maxHeartbeats 2000000 in
/-- The constant one the counts are clamped at. -/
theorem first_one (c : Dev nD) :
    (after (hostOps0 (F := Ideal)) (fun b => m (c, b)) (Proc.devRef .tc main_cst_3) : (⟨S_, .f32⟩ : BufTy).Contents (Elt Ideal))
      = Cert.ReferenceIdeal.Read.val_main_cst_3 (F := Ideal) := by
  after_results_simp <;> rfl

set_option maxRecDepth 8192 in
set_option maxHeartbeats 2000000 in
/-- It leaves the node features as launched. -/
theorem first_arg0 (c : Dev nD) :
    after (hostOps0 (F := Ideal)) (fun b => m (c, b)) (Proc.devRef .tc main_arg0) = m ((c : Thread nD τ).loc main_arg0) := by
  after_results_simp <;> rfl

/-! ## The arrays the region's windows read -/

/-- The feature table the region finds is the reference's. -/
theorem features_eq (c : Dev nD) :
    (V m c main_v22 : (⟨S100000x128, .f32⟩ : BufTy).Contents (Elt Ideal))
      = Cert.ReferenceIdeal.Read.val_main_v22 (F := Ideal) (m ((c : Thread nD τ).loc main_arg0)) (m ((c : Thread nD τ).loc main_arg1)) := by
  dsimp only [V]
  rw [List.flatten_cons, List.flatten_cons, List.flatten_cons, List.flatten_nil, List.append_nil, after_append, after_append,
    third_feat, second_sums, second_counts, second_arg0, first_sums, first_counts, first_one, first_arg0]
  rfl

/-- The first weight table the region finds is the reference's transpose. -/
theorem w1t_eq (c : Dev nD) :
    (V m c main_v23 : (⟨S128x128, .f32⟩ : BufTy).Contents (Elt Ideal))
      = Cert.ReferenceIdeal.Read.val_main_v23 (F := Ideal) (m ((c : Thread nD τ).loc main_arg2)) := by
  dsimp only [V]
  simp only [hostOps0, hostOps0_1, hostOps0_2, List.flatten_cons, List.flatten_nil, List.append_nil, List.cons_append, List.nil_append]
  after_results_simp <;> rfl

/-- So is the second. -/
theorem w2t_eq (c : Dev nD) :
    (V m c main_v24 : (⟨S128x128, .f32⟩ : BufTy).Contents (Elt Ideal))
      = Cert.ReferenceIdeal.Read.val_main_v29 (F := Ideal) (m ((c : Thread nD τ).loc main_arg4)) := by
  dsimp only [V]
  simp only [hostOps0, hostOps0_1, hostOps0_2, List.flatten_cons, List.flatten_nil, List.append_nil, List.cons_append, List.nil_append]
  after_results_simp <;> rfl

/-- The first bias as a row: its entry at column `q` is the bias's entry `q`. -/
theorem b1r_apply (c : Dev nD) (q : Fin 128) :
    (V m c main_v25 : (⟨S1x128, .f32⟩ : BufTy).Contents (Elt Ideal)) (ix2 (0 : Fin 1) q) = m ((c : Thread nD τ).loc main_arg3) (ix1 q) := by
  have e : (V m c main_v25 : (⟨S1x128, .f32⟩ : BufTy).Contents (Elt Ideal))
      = shapeCast S1x128 (m ((c : Thread nD τ).loc main_arg3)) shapeCasts_S128_S1x128 := by
    dsimp only [V]
    simp only [hostOps0, hostOps0_1, hostOps0_2, List.flatten_cons, List.flatten_nil, List.append_nil, List.cons_append, List.nil_append]
    after_results_simp <;> rfl
  rw [e]
  exact shapeCast_apply _ shapeCasts_S128_S1x128 (ix2 (0 : Fin 1) q) (ix1 q) (by
    rw [Shape.rowMajor_val_one, Shape.rowMajor_val_two]; show q.val = 0 * 128 + q.val; omega)

/-- So for the second. -/
theorem b2r_apply (c : Dev nD) (q : Fin 128) :
    (V m c main_v26 : (⟨S1x128, .f32⟩ : BufTy).Contents (Elt Ideal)) (ix2 (0 : Fin 1) q) = m ((c : Thread nD τ).loc main_arg5) (ix1 q) := by
  have e : (V m c main_v26 : (⟨S1x128, .f32⟩ : BufTy).Contents (Elt Ideal))
      = shapeCast S1x128 (m ((c : Thread nD τ).loc main_arg5)) shapeCasts_S128_S1x128 := by
    dsimp only [V]
    simp only [hostOps0, hostOps0_1, hostOps0_2, List.flatten_cons, List.flatten_nil, List.append_nil, List.cons_append, List.nil_append]
    after_results_simp <;> rfl
  rw [e]
  exact shapeCast_apply _ shapeCasts_S128_S1x128 (ix2 (0 : Fin 1) q) (ix1 q) (by
    rw [Shape.rowMajor_val_one, Shape.rowMajor_val_two]; show q.val = 0 * 128 + q.val; omega)

end Cert.KernelIdeal.HostArrays

end
-- ==== Proof.RefIsMlp.lean ====
/-
  The reference's result, read at an index, is the two-layer perceptron of `Cert.Mlp`.

  The reference forms the table `C` of aggregated and own features (its stage `val_main_v22`, kept whole here: nothing
  below looks inside it), then computes `C · W1ᵀ + b1`, clamps at zero, and computes `h · W2ᵀ + b2`. Read at row `r`
  and column `j`, each matrix product is the sum over the 128 contracted positions, each bias is the bias row's entry
  at the column, and the clamp is `max · 0` — term by term the definition of `Cert.Mlp.mlp`.
-/
import proofs.«153227_j82162724372842_1_alg».proof.Proof.Gen.ReferenceIdeal.Read
import proofs.«153227_j82162724372842_1_alg».proof.Proof.MlpSpec

noncomputable section

open scoped BigOperators

namespace Cert.ReferenceIdeal.RefValue

open Cert.ReferenceIdeal Cert.ReferenceIdeal.Read Idealize.ShloMosaic Idealize.ShloMosaic.ValueIdx

/-! ## Where each operation reads its operands -/

/-- The second product at `(r, j)` reads the hidden layer on row `r`, at the contracted position, -/
theorem out_lhs (r : Fin 100000) (j k : Fin 128) : lidx_main_v30 (ix2 r j) k = ix2 r k :=
  funext fun a => Fin.ext (by match a with | ⟨0, _⟩ => rfl | ⟨1, _⟩ => rfl)
/-- and the second weight table at the contracted position, on column `j`. -/
theorem out_rhs (r : Fin 100000) (j k : Fin 128) : ridx_main_v30 (ix2 r j) k = ix2 k j :=
  funext fun a => Fin.ext (by match a with | ⟨0, _⟩ => rfl | ⟨1, _⟩ => rfl)
/-- The first product at `(r, k)` reads the feature table on row `r`, at the contracted position, -/
theorem hid_lhs (r : Fin 100000) (k k' : Fin 128) : lidx_main_v24 (ix2 r k) k' = ix2 r k' :=
  funext fun a => Fin.ext (by match a with | ⟨0, _⟩ => rfl | ⟨1, _⟩ => rfl)
/-- and the first weight table at the contracted position, on column `k`. -/
theorem hid_rhs (r : Fin 100000) (k k' : Fin 128) : ridx_main_v24 (ix2 r k) k' = ix2 k' k :=
  funext fun a => Fin.ext (by match a with | ⟨0, _⟩ => rfl | ⟨1, _⟩ => rfl)
/-- The first bias, spread over the rows, is read at the column. -/
theorem hid_bias (r : Fin 100000) (k : Fin 128) : idx_main_v25 (idx_main_v26 (ix2 r k)) = ix1 k :=
  funext fun a => Fin.ext (by match a with | ⟨0, _⟩ => rfl)
/-- So is the second. -/
theorem out_bias (r : Fin 100000) (j : Fin 128) : idx_main_v31 (idx_main_v32 (ix2 r j)) = ix1 j :=
  funext fun a => Fin.ext (by match a with | ⟨0, _⟩ => rfl)

/-! ## The two layers -/

/-- Hidden unit `k` of row `r`: the first product plus the first bias, clamped at zero. -/
theorem hidden_apply (x0 : (⟨S100000x64, .f32⟩ : BufTy).Contents (Elt Ideal)) (x1 : (⟨S2x1200000, .i32⟩ : BufTy).Contents (Elt Ideal))
    (x2 : (⟨S128x128, .f32⟩ : BufTy).Contents (Elt Ideal)) (x3 : (⟨S128, .f32⟩ : BufTy).Contents (Elt Ideal)) (r : Fin 100000) (k : Fin 128) :
    val_main_v28 (F := Ideal) x0 x1 x2 x3 (ix2 r k)
      = Cert.Mlp.hidden (fun r k => val_main_v22 (F := Ideal) x0 x1 (ix2 r k)) (fun a b => val_main_v23 (F := Ideal) x2 (ix2 a b)) (fun q => x3 (ix1 q)) r k := by
  rw [val_main_v28_apply, val_main_v27_apply, val_main_v24_apply, val_main_v26_apply, val_main_v25_apply, hid_bias,
    val_main_call1_v0_apply, val_main_call1_cst_apply, Ideal.ofBits_def, Ideal.ofBits_zero_f32, Ideal.addf_def, Ideal.maximumf_def]
  unfold Cert.Mlp.hidden
  refine congrArg (fun s => max (s + x3 (ix1 k)) 0) (Finset.sum_congr rfl fun k' _ => ?_)
  rw [hid_lhs, hid_rhs]

/-- Entry `(r, j)` of the reference's result is `mlp` of its feature table, its two transposed weight tables and
    its two bias rows. -/
theorem result_apply (x0 : (⟨S100000x64, .f32⟩ : BufTy).Contents (Elt Ideal)) (x1 : (⟨S2x1200000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (r : Fin 100000) (j : Fin 128) :
    val_main_v33 (F := Ideal) x0 x1 x2 x3 x4 x5 (ix2 r j)
      = Cert.Mlp.mlp (fun r k => val_main_v22 (F := Ideal) x0 x1 (ix2 r k)) (fun a b => val_main_v23 (F := Ideal) x2 (ix2 a b))
          (fun q => x3 (ix1 q)) (fun a b => val_main_v29 (F := Ideal) x4 (ix2 a b)) (fun q => x5 (ix1 q)) r j := by
  rw [val_main_v33_apply, val_main_v30_apply, val_main_v32_apply, val_main_v31_apply, out_bias, Ideal.addf_def]
  unfold Cert.Mlp.mlp
  refine congrArg (· + x5 (ix1 j)) (Finset.sum_congr rfl fun k _ => ?_)
  rw [out_lhs, out_rhs, hidden_apply]

end Cert.ReferenceIdeal.RefValue

end
-- ==== Proof.Bridge.lean ====
/-
  The two programs end with the same array.

  The reference's result at `(r, j)` is the perceptron of ITS feature table, transposed weight tables and biases; the
  kernel's output array is the perceptron of the arrays ITS region finds. Those arrays are the reference's stages of the
  same arguments (the host operations before the region are the reference's own), and a bias reshaped to a row has the
  bias's entries, so the two arrays are one function of the arguments.
-/
import proofs.«153227_j82162724372842_1_alg».proof.Proof.WholeArray
import proofs.«153227_j82162724372842_1_alg».proof.Proof.HostArrays
import proofs.«153227_j82162724372842_1_alg».proof.Proof.RefIsMlp

noncomputable section

namespace Cert.Bridge

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The reference's result, of the kernel's argument arrays, is the array the kernel's output ends holding. -/
theorem result_eq (c : Dev nD) :
    Cert.ReferenceIdeal.Read.val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      = Cert.KernelIdeal.Whole.out m c := by
  funext i
  obtain ⟨r, j, rfl⟩ : ∃ (r : Fin 100000) (j : Fin 128), i = ix2 r j := ⟨i 0, i 1, eq_ix2 i⟩
  rw [Cert.ReferenceIdeal.RefValue.result_apply]
  unfold Cert.KernelIdeal.Whole.out
  dsimp only [Cert.KernelIdeal.Whole.feat, Cert.KernelIdeal.Whole.w1t, Cert.KernelIdeal.Whole.w2t, Cert.KernelIdeal.Whole.b1r,
    Cert.KernelIdeal.Whole.b2r]
  rw [Cert.KernelIdeal.HostArrays.features_eq m c, Cert.KernelIdeal.HostArrays.w1t_eq m c, Cert.KernelIdeal.HostArrays.w2t_eq m c]
  simp only [Cert.KernelIdeal.HostArrays.b1r_apply m c, Cert.KernelIdeal.HostArrays.b2r_apply m c]

end Cert.Bridge

end
-- ==== Proof.lean ====
/-
  A graph layer: every node takes the mean of its in-neighbours' features (the sum over incoming edges divided by
  the number of them, a node with none divided by one), joins it to its own features, and a two-layer perceptron
  `max (· W1ᵀ + b1) 0 · W2ᵀ + b2` is applied to each node's 128 joined features.

  The kernel and the reference compute the joined table with the same host operations; the kernel then applies the
  perceptron to blocks of 5000 nodes in one region of 20 points, narrowing the matrix unit's operands to sixteen bits,
  where the reference applies it to all 100000 nodes at once. Over the extended reals the narrowing is the identity
  and a product accumulated into zero is the plain sum of products, so on each row both compute the same sums in the
  same order: no law of arithmetic joins them, and the precondition (every input finite) is not used. The perceptron's
  value at a node depends on that node's row only, so the 20 blocks, which tile the rows, assemble to the reference's
  array.

  The modules: `MlpSpec` (the perceptron as a function over the extended reals), `RefIsMlp` (the reference's result
  read at an entry), `KernelPayload` (what the body stores, read at an entry), `HostArrays` (the arrays the region
  finds are the reference's stages), `Blocks` and `WholeArray` (from the blocks to the output array), `Bridge` (the
  two arrays are one).
-/
import proofs.«153227_j82162724372842_1_alg».proof.Defs
import proofs.«153227_j82162724372842_1_alg».proof.Proof.Gen.Kernel
import proofs.«153227_j82162724372842_1_alg».proof.Proof.Gen.Kernel.Skeleton
import proofs.«153227_j82162724372842_1_alg».proof.Proof.Gen.Kernel.Launch
import proofs.«153227_j82162724372842_1_alg».proof.Proof.Gen.Kernel.Points
import proofs.«153227_j82162724372842_1_alg».proof.Proof.Gen.Kernel.Frame
import proofs.«153227_j82162724372842_1_alg».proof.Proof.Gen.KernelIdeal
import proofs.«153227_j82162724372842_1_alg».proof.Proof.Gen.KernelIdeal.Skeleton
import proofs.«153227_j82162724372842_1_alg».proof.Proof.Gen.KernelIdeal.Launch
import proofs.«153227_j82162724372842_1_alg».proof.Proof.Gen.KernelIdeal.Points
import proofs.«153227_j82162724372842_1_alg».proof.Proof.Gen.KernelIdeal.Frame
import proofs.«153227_j82162724372842_1_alg».proof.Proof.Gen.ReferenceIdeal
import proofs.«153227_j82162724372842_1_alg».proof.Proof.Gen.KernelIdeal.Value
import proofs.«153227_j82162724372842_1_alg».proof.Proof.Gen.ReferenceIdeal.Run
import proofs.«153227_j82162724372842_1_alg».proof.Proof.Gen.ReferenceIdeal.Read
import proofs.«153227_j82162724372842_1_alg».proof.Proof.Gen.Pre_finite_inputs
import proofs.«153227_j82162724372842_1_alg».proof.Proof.Bridge
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the perceptron applied to every row of the joined table: the kernel's output array by
    its blocks, the reference's result by its operations read at an entry, the two tables being one. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
